-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096 : Shape := ⟨1, ![4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x4096 .f32) (main_arg1 : FVec F S4096x4096 .f32) (main_arg2 : FVec F S4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4096x4096 : Shape := ⟨2, ![4096, 4096]⟩
abbrev S4096 : Shape := ⟨1, ![4096]⟩
abbrev S1x4096 : Shape := ⟨2, ![1, 4096]⟩
abbrev S1024x512 : Shape := ⟨2, ![1024, 512]⟩
abbrev S512x1024 : Shape := ⟨2, ![512, 1024]⟩
abbrev S1x1024 : Shape := ⟨2, ![1, 1024]⟩
abbrev S1024x1024 : Shape := ⟨2, ![1024, 1024]⟩

abbrev nBuf : Space → Nat
  | .hbm => 5
  | .vmem => 9
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S1x4096, .f32⟩
  | .hbm, ⟨4, _⟩ => ⟨S4096x4096, .f32⟩
  | .local _ .vmem, ⟨0, _⟩ => ⟨S1024x512, .f32⟩
  | .local _ .vmem, ⟨1, _⟩ => ⟨S1024x512, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 8], ![false, false, false]⟩

def k0_cond2 (i : grid0.Coords) : BitVec 1 :=
  let arg2 : BitVec 32 := BitVec.ofNat 32 (i 2).val
  let c7_i32 : BitVec 32 := 7#32
  let v18 : BitVec 1 := Scalar.cmpi .eq arg2 c7_i32
  let v19 : BitVec 32 := Scalar.extui v18
  let c0_i32_11 : BitVec 32 := 0#32
  let v20 : BitVec 1 := Scalar.cmpi .ne v19 c0_i32_11
  v20

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S512x1024_S512x1024_0_0 : ∀ a, (![0, 0] : Fin 2 → Nat) a + S512x1024.size a ≤ S512x1024.size a
  h_S512x1024 : 0 < S512x1024.numel
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x4096.size a
  hwx0_0 : ∀ i : grid0.Coords, EltTy.bits .f32 = 32 ∨ (Rect.block (s := S4096x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x4096.size a
  hwx0_1 : ∀ i : grid0.Coords, EltTy.bits .f32 = 32 ∨ (Rect.block (s := S4096x4096) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x4096.size a
  hwx0_3 : ∀ i : grid0.Coords, EltTy.bits .f32 = 32 ∨ (Rect.block (s := S4096x4096) S1024x1024.size (cc0_transform_3 i) (hinb0_3 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4096x4096 : Shape := ⟨2, ![4096, 4096]⟩
abbrev S4096 : Shape := ⟨1, ![4096]⟩
abbrev S_ : Shape := ⟨0, ![]⟩
abbrev S1x4096 : Shape := ⟨2, ![1, 4096]⟩

abbrev nBuf : Space → Nat
  | .hbm => 21
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S_, .f32⟩
  | .hbm, ⟨4, _⟩ => ⟨S4096x4096, .f32⟩
  | .hbm, ⟨5, _⟩ => ⟨S4096x4096, .i1⟩
  | .hbm, ⟨6, _⟩ => ⟨S_, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S1x4096, .f32⟩
  | .hbm, ⟨16, _⟩ => ⟨S4096x4096, .f32⟩
  | .hbm, ⟨17, _⟩ => ⟨S4096x4096, .f32⟩
  | .hbm, ⟨18, _⟩ => ⟨S_, .f32⟩
  | .hbm, ⟨19, _⟩ => ⟨S4096x4096, .f32⟩
  | .hbm, ⟨20, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_cst_1 : Ref sig .tc := ⟨.hbm, 7, rfl⟩
abbrev main_call0_v0 : Ref sig .tc := ⟨.hbm, 8, rfl⟩
abbrev main_call0_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_call1_cst : Ref sig .tc := ⟨.hbm, 18, rfl⟩
abbrev main_call1_v0 : Ref sig .tc := ⟨.hbm, 19, rfl⟩
abbrev main_v10 : Ref sig .tc := ⟨.hbm, 20, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  dot_S4096x4096_S4096x4096_S4096x4096_1_0_0_1_n_n_wf : DotDims.WF S4096x4096 S4096x4096 S4096x4096 [1] [0] [0] [1] [] []

variable [Facts₀]

def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf

class Facts : Prop extends Facts₀ where

variable [Facts]
-- ==== Proof.Spec.lean ====
/-
  Sign-binarized dense layer on the extended reals: the arithmetic both programs share.

  For X, W : [4096, 4096] and b : [4096] the layer's output at (r, q) is

      max (Σ_k X(r, k) · sgn (W(k, q)) + b(q)) 0,      sgn w = 1 if w ≥ 0, else −1.

  This file states that function (`dense`), the contraction cut into eight consecutive blocks of 512 terms
  (`blockTerm`, `partialDot`: the sum of the first n blocks, one block added per step, all eight giving the whole
  contraction), and the one law that joins a weight to its sign: for a finite w, w + (s − w) = s whatever extended
  real s is. The float literals 0, 1, −1 are kept as the f32 words the programs print; only the zero word is ever
  evaluated.
-/
import Idealize.ShloMosaic.PureOps.Ideal.Laws
import Idealize.ShloMosaic.Lib.ValueIdx

noncomputable section

namespace Cert.SignDense

open Idealize.ShloMosaic Idealize.ShloMosaic.ValueIdx

/-- A [4096, 4096] array of extended reals. -/
abbrev Mat : Type := (⟨2, ![4096, 4096]⟩ : Shape).Idx → EReal
/-- A [4096] array of extended reals. -/
abbrev Bias : Type := (⟨1, ![4096]⟩ : Shape).Idx → EReal

/-- The f32 words of 0, 1 and −1 read as extended reals. -/
abbrev zeroLit : EReal := Ideal.ofBits .f32 0x00000000#32
abbrev oneLit : EReal := Ideal.ofBits .f32 0x3F800000#32
abbrev negOneLit : EReal := Ideal.ofBits .f32 0xBF800000#32

/-- The binarized weight: 1 where `w ≥ 0` (zero included), else −1. -/
def sgn (w : EReal) : EReal := Scalar.select (Ideal.cmp .oge w zeroLit) oneLit negOneLit

/-- Term `l` of contraction block `a` sits at `k = 512 a + l`. -/
def kIdx (a : Fin 8) (l : Fin 512) : Fin 4096 := ⟨512 * a.val + l.val, by omega⟩

/-- Block `a`'s 512 terms of entry (r, q)'s contraction. -/
def blockTerm (X W : Mat) (r q : Fin 4096) (a : Fin 8) : EReal :=
  ∑ l : Fin 512, X (ix2 r (kIdx a l)) * sgn (W (ix2 (kIdx a l) q))

/-- The first `n` blocks of entry (r, q)'s contraction. -/
def partialDot (X W : Mat) (r q : Fin 4096) (n : ℕ) : EReal :=
  ∑ a : Fin 8, if a.val < n then blockTerm X W r q a else 0

theorem partialDot_zero (X W : Mat) (r q : Fin 4096) : partialDot X W r q 0 = 0 := by
  unfold partialDot
  exact Finset.sum_eq_zero fun a _ => if_neg (Nat.not_lt_zero _)

/-- One more block: the first `n + 1` blocks are the first `n` and block `n`. -/
theorem partialDot_succ (X W : Mat) (r q : Fin 4096) (n : ℕ) (h : n < 8) :
    partialDot X W r q (n + 1) = partialDot X W r q n + blockTerm X W r q ⟨n, h⟩ := by
  unfold partialDot
  have e : blockTerm X W r q ⟨n, h⟩ = ∑ a : Fin 8, if a = ⟨n, h⟩ then blockTerm X W r q a else 0 := by
    rw [Finset.sum_ite_eq' Finset.univ (⟨n, h⟩ : Fin 8) (fun a => blockTerm X W r q a), if_pos (Finset.mem_univ _)]
  rw [e, ← Finset.sum_add_distrib]
  refine Finset.sum_congr rfl fun a _ => ?_
  by_cases h1 : a.val < n
  · rw [if_pos h1, if_pos (Nat.lt_succ_of_lt h1), if_neg (fun h2 => by rw [h2] at h1; exact Nat.lt_irrefl _ h1), add_zero]
  · by_cases h2 : a = ⟨n, h⟩
    · rw [if_neg h1, if_pos h2, if_pos (by rw [h2]; exact Nat.lt_succ_self n), zero_add]
    · have h3 : ¬ a.val < n + 1 := fun h3 => h2 (Fin.ext (by show a.val = n; have := Nat.lt_succ_iff.mp h3; omega))
      rw [if_neg h1, if_neg h2, if_neg h3, add_zero]

/-- All eight blocks are the whole contraction over `k < 4096`. -/
theorem partialDot_eight (X W : Mat) (r q : Fin 4096) :
    partialDot X W r q 8 = ∑ k : Fin 4096, X (ix2 r k) * sgn (W (ix2 k q)) := by
  unfold partialDot
  have e1 : (∑ a : Fin 8, if a.val < 8 then blockTerm X W r q a else 0) = ∑ a : Fin 8, blockTerm X W r q a :=
    Finset.sum_congr rfl fun a _ => if_pos a.isLt
  rw [e1]
  unfold blockTerm
  rw [← Fintype.sum_prod_type' (f := fun (a : Fin 8) (l : Fin 512) => X (ix2 r (kIdx a l)) * sgn (W (ix2 (kIdx a l) q)))]
  rw [← Equiv.sum_comp (finProdFinEquiv : Fin 8 × Fin 512 ≃ Fin 4096) (fun k => X (ix2 r k) * sgn (W (ix2 k q)))]
  refine Finset.sum_congr rfl fun p _ => ?_
  have ek : (finProdFinEquiv : Fin 8 × Fin 512 ≃ Fin 4096) p = kIdx p.1 p.2 :=
    Fin.ext (by show p.2.val + 512 * p.1.val = 512 * p.1.val + p.2.val; omega)
  rw [ek]

/-- The layer: entry (r, q) is `max (Σ_k X(r, k) · sgn W(k, q) + b(q)) 0`. -/
def dense (X W : Mat) (b : Bias) : Mat := fun i =>
  max ((∑ k : Fin 4096, X (ix2 (i 0) k) * sgn (W (ix2 k (i 1)))) + b (ix1 (i 1))) zeroLit

/-- Adding back what was subtracted: for a finite `w`, `w + (s − w) = s` for every extended real `s`
    (at `s = ±∞` both sides are that infinity, because `w` is finite). -/
theorem add_sub_cancel_finite (w : ℝ) (s : EReal) : (w : EReal) + (s - (w : EReal)) = s := by
  induction s using EReal.rec with
  | bot => simp
  | top => simp
  | coe x => rw [← EReal.coe_sub, ← EReal.coe_add]; congr 1; ring

end Cert.SignDense

end
-- ==== Proof.Pieces.lean ====
/-
  What one grid point leaves in the accumulator and in the output block, read back as values.

  The layer's contraction is cut into eight K-steps. Each step adds one block product to an f32 accumulator:
  the first step starts from a zeroed accumulator, every later step from what the step before left, and the
  last step also adds the bias to the finished accumulator and clamps at zero into the output block. Here each
  of those contents is named as a term over the blocks the step read: the step's sum `k0_pay2 w x acc` (the sign
  of the weight block `w`, contracted with the activation block `x`, added to `acc`), the zero block `k0_pay1`,
  and the bias-and-clamp `k0_pay3 acc b`. All three are kept folded: the arithmetic inside them is read
  elsewhere. The statements hold over any float model `F`.
-/
import proofs.«133517_j27590869910151_1_alg».proof.Proof.Gen.KernelIdeal.Frame
import Idealize.ShloMosaic.Lib.Pipeline.Value
import Idealize.ShloMosaic.Lib.Tactic

-- the blocks are whole rectangles of extents 1024 and 512, compared coordinate by coordinate
set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F]

/-- The offset pair (0, 0) is the constant-zero offset: every buffer here is read and written whole. -/
theorem hz : (![0, 0] : Fin 2 → Nat) = fun _ => 0 := funext fun a => by fin_cases a <;> rfl

/-- first K-step: the scratch is zeroed, then the step is added -/
theorem scratch_A (c : Dev nD) (i : grid0.Coords) (arg3 : Memref sig .tc .vmem S1024x512 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i) (x0 : Vec F S1024x512 .f32) (x1 : Vec F S512x1024 .f32) (x2 : Vec F S1x1024 .f32) :
    sout0_A_0 c i arg3 harg3 arg4 harg4 arg5 harg5 arg6 harg6 arg7 harg7 hc0 hc1 x0 x1 x2 = k0_pay2 x1 x0 (k0_pay1 (F := F)) := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  -- two whole-block stores, the zero block first: the later one decides, and the accumulator it loaded
  -- in between is the zero block read back
  rw [View.canon_cons_unit_zero (S := S1024x1024) hz, View.readCov_unit_zero (S := S1024x1024) _ hz]
  simp only [View.readAt_eq_ld, harg3.read_unread, harg4.read_unread,
    View.ld_unit_zero (S := S512x1024) hz, View.ld_unit_zero (S := S1024x512) hz]

/-- a middle K-step: the step is added to what the step before left -/
theorem scratch_B (c : Dev nD) (i : grid0.Coords) (arg3 : Memref sig .tc .vmem S1024x512 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : ¬cond0_1 i) (x0 : Vec F S1024x512 .f32) (x1 : Vec F S512x1024 .f32) (x2 : Vec F S1x1024 .f32) (xs0 : Vec F S1024x1024 .f32) :
    sout0_B_0 c i arg3 harg3 arg4 harg4 arg5 harg5 arg6 harg6 arg7 harg7 hc0 hc1 x0 x1 x2 xs0 = k0_pay2 x1 x0 xs0 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  sl_unfold_words
  -- one whole-block store, its three loads each reading a whole buffer
  rw [View.canon_unit_zero hz]
  simp only [View.readAt_eq_ld, harg3.read_unread, harg4.read_unread, harg7.read_unread,
    View.ld_unit_zero (S := S512x1024) hz, View.ld_unit_zero (S := S1024x512) hz,
    View.ld_unit_zero (S := S1024x1024) hz]

/-- the last K-step leaves the same sum in the scratch as a middle one -/
theorem scratch_C (c : Dev nD) (i : grid0.Coords) (arg3 : Memref sig .tc .vmem S1024x512 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i) (x0 : Vec F S1024x512 .f32) (x1 : Vec F S512x1024 .f32) (x2 : Vec F S1x1024 .f32) (xs0 : Vec F S1024x1024 .f32) :
    sout0_C_0 c i arg3 harg3 arg4 harg4 arg5 harg5 arg6 harg6 arg7 harg7 hc0 hc1 x0 x1 x2 xs0 = k0_pay2 x1 x0 xs0 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero hz]
  simp only [View.readAt_eq_ld, harg3.read_unread, harg4.read_unread, harg7.read_unread,
    View.ld_unit_zero (S := S512x1024) hz, View.ld_unit_zero (S := S1024x512) hz,
    View.ld_unit_zero (S := S1024x1024) hz]

/-- the last K-step's output block: bias added to the finished sum, clamped at zero. The sum is the scratch
    as loaded AFTER this step's own store, so it is this step's sum, not the one the step before left. -/
theorem out_C (c : Dev nD) (i : grid0.Coords) (arg3 : Memref sig .tc .vmem S1024x512 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i) (x0 : Vec F S1024x512 .f32) (x1 : Vec F S512x1024 .f32) (x2 : Vec F S1x1024 .f32) (xs0 : Vec F S1024x1024 .f32) :
    out0_C_3 c i arg3 harg3 arg4 harg4 arg5 harg5 arg6 harg6 arg7 harg7 hc0 hc1 x0 x1 x2 xs0 = k0_pay3 (k0_pay2 x1 x0 xs0) x2 := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero hz]
  simp only [View.readAt_eq_ld, View.readCov_unit_zero (S := S1024x1024) _ hz,
    harg3.read_unread, harg4.read_unread, harg5.read_unread, harg7.read_unread,
    View.ld_unit_zero (S := S512x1024) hz, View.ld_unit_zero (S := S1024x512) hz,
    View.ld_unit_zero (S := S1024x1024) hz, View.ld_unit_zero (S := S1x1024) hz]

end Cert.KernelIdeal.Pieces

end
-- ==== Proof.LibPlainDot.lean ====
/-
  A plain matrix product read at an entry.

  For the dimension numbers `⟨[1], [0], [0], [1], [], []⟩` (an M×K operand times a K×N operand, no batch axis), the
  product accumulated into a zero array has, at entry (p, q), the value Σ_k lhs (p, k) · rhs (k, q) on the extended
  reals: no rounding and no order of summation is left in it. The statement is generic in the three extents and in the
  operands' float formats (a change of format is the identity on the extended reals), so it serves every plain product
  of a kernel body; a printed dimension record with these six lists IS `DotDims.plain M K N` (its well-formedness
  proof is a proposition), so the lemma applies to it as it stands.
-/
import Idealize.ShloMosaic.PureOps.Ideal.Laws
import Idealize.ShloMosaic.Lib.ValueIdx

namespace Idealize.ShloMosaic.PlainDot

open Idealize.ShloMosaic Idealize.ShloMosaic.ValueIdx

/-- The left operand's row coordinate at output entry `i` is `i`'s row. -/
theorem lhs_row (M K N : Nat) (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- The left operand's column coordinate is the contraction index. -/
theorem lhs_col (M K N : Nat) (i : (⟨2, ![M, N]⟩ : Shape).Idx) (c : (DotDims.plain M K N).contr.Idx) :
    ((DotDims.plain M K N).lhsIdx i c 1).val = (c ⟨0, Nat.one_pos⟩).val :=
  (DotDims.plain M K N).lhsIdx_val_of_single rfl i c

/-- The right operand's row coordinate is the contraction index. -/
theorem rhs_row (M K N : Nat) (i : (⟨2, ![M, N]⟩ : Shape).Idx) (c : (DotDims.plain M K N).contr.Idx) :
    ((DotDims.plain M K N).rhsIdx i c 0).val = (c ⟨0, Nat.one_pos⟩).val :=
  (DotDims.plain M K N).rhsIdx_val_of_single rfl i c

/-- The right operand's column coordinate at output entry `i` is `i`'s column. -/
theorem rhs_col (M K N : Nat) (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- A plain M×K by K×N product into the zero array, at entry (p, q), is `Σ_k lhs (p, k) · rhs (k, q)`. -/
theorem matmul_zero_apply {φ₁ φ₂ : FTy} (M K N : Nat) (lhs : FVec Ideal ⟨2, ![M, K]⟩ φ₁) (rhs : FVec Ideal ⟨2, ![K, N]⟩ φ₂)
    (p : Fin M) (q : Fin N) :
    FloatOps.matmul (DotDims.plain M K N) none lhs rhs (constant ⟨2, ![M, N]⟩ .f32 0x00000000#32) (ix2 p q)
      = ∑ k : Fin K, lhs (ix2 p k) * rhs (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row M K N _ _
      | ⟨1, _⟩ => exact (lhs_col M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row M K N _ _).trans hk
      | ⟨1, _⟩ => exact rhs_col M K N _ _)
  rw [el, er]

end Idealize.ShloMosaic.PlainDot
-- ==== Proof.Payload.lean ====
/-
  The kernel body's three stored values, read at one entry of the 1024 × 1024 tile on the extended reals.

  * the reset stores 0;
  * a K-step stores, at (p, u), what the accumulator held there plus Σ_{l < 512} x(p, l) · sgn w(l, u) of the step's
    x-block and weight block (the bf16 casts are the identity on the extended reals, and the matrix product into a
    zero array is the plain sum);
  * the last step's output is max (acc(p, u) + b(0, u)) 0 of the accumulator and the bias row.
-/
import proofs.«133517_j27590869910151_1_alg».proof.Proof.Gen.KernelIdeal.Skeleton
import proofs.«133517_j27590869910151_1_alg».proof.Proof.LibPlainDot
import proofs.«133517_j27590869910151_1_alg».proof.Proof.Spec
import Idealize.ShloMosaic.Lib.Pipeline.Value
import Idealize.ShloMosaic.Lib.ValueIdx

noncomputable section

namespace Cert.KernelIdeal.Payload

open Idealize.ShloMosaic Idealize.ShloMosaic.ValueIdx Cert.KernelIdeal Cert.KernelIdeal.Gen Cert.SignDense

/-- The reset's value is 0 at every entry. -/
theorem reset_apply (p u : Fin 1024) : k0_pay1 (F := Ideal) (ix2 p u) = 0 := by
  unfold k0_pay1
  simp only [shapeCast_self]
  exact Ideal.ofBits_zero_f32

/-- One K-step at entry (p, u): the accumulator's entry plus the block's 512 products. -/
theorem step_apply (w : Vec Ideal S512x1024 .f32) (x : Vec Ideal S1024x512 .f32) (acc : Vec Ideal S1024x1024 .f32)
    (p u : Fin 1024) :
    k0_pay2 (F := Ideal) w x acc (ix2 p u) = acc (ix2 p u) + ∑ l : Fin 512, x (ix2 p l) * sgn (w (ix2 l u)) := by
  unfold k0_pay2
  simp only [shapeCast_self]
  rw [addf_apply]
  congr 1
  exact Idealize.ShloMosaic.PlainDot.matmul_zero_apply 1024 512 1024 _ _ p u

/-- The output at entry (p, u): bias added along the row, then the maximum with 0. -/
theorem finish_apply (acc : Vec Ideal S1024x1024 .f32) (b : Vec Ideal S1x1024 .f32) (p u : Fin 1024) :
    k0_pay3 (F := Ideal) acc b (ix2 p u) = max (acc (ix2 p u) + b (ix2 (0 : Fin 1) u)) zeroLit := by
  unfold k0_pay3
  simp only [shapeCast_self]
  rw [maximumf_apply, addf_apply]
  rw [broadcastTo_apply b broadcasts_S1x1024_S1024x1024 (ix2 p u) (ix2 (0 : Fin 1) u) (by
    intro a
    match a with
    | ⟨0, _⟩ => rfl
    | ⟨1, _⟩ => rfl)]
  rfl

end Cert.KernelIdeal.Payload

end
-- ==== Proof.Blocks.lean ====
/-
  The tiles the grid point reads, as entries of the whole arrays.

  The 4 × 4 × 8 grid is walked in row-major order: point n is (n / 32, n / 8 % 4, n % 8) = (row tile, column tile,
  contraction block). At point n the x-window holds rows 1024·(n/32) … and columns 512·(n%8) … of x, the weight window
  rows 512·(n%8) … and columns 1024·(n/8%4) … of W, the bias window columns 1024·(n/8%4) … of the bias laid out as one
  row, and the output window is tile (n/32, n/8%4) of the result.
-/
import proofs.«133517_j27590869910151_1_alg».proof.Proof.Gen.KernelIdeal.Frame
import proofs.«133517_j27590869910151_1_alg».proof.Proof.Spec
import Idealize.ShloMosaic.Lib.Pipeline.Value
import Idealize.ShloMosaic.Lib.ValueIdx
import Idealize.ShloMosaic.Lib.StableHlo.Run

noncomputable section

namespace Cert.KernelIdeal.Blocks

open Idealize.ShloMosaic Idealize.ShloMosaic.TcCoe Idealize.SL.Sem Idealize.ShloMosaic.ValueIdx
open Cert.KernelIdeal Cert.KernelIdeal.Gen Cert.SignDense

variable {F : FTy → Type} [FloatOps F]
variable (m : (ℓ : Loc nD τ sig) → Buf (Elt F) ℓ)

/-- Row `p` of point `n`'s row tile, in the whole array. -/
def tileRow (n : ℕ) (hn : n < 128) (p : Fin 1024) : Fin 4096 := ⟨1024 * (n / 32) + p.val, by omega⟩
/-- Column `u` of point `n`'s column tile, in the whole array. -/
def tileCol (n : ℕ) (hn : n < 128) (u : Fin 1024) : Fin 4096 := ⟨1024 * (n / 8 % 4) + u.val, by omega⟩
/-- Point `n`'s contraction block. -/
def kBlock (n : ℕ) : Fin 8 := ⟨n % 8, Nat.mod_lt _ (by decide)⟩

theorem lt128 (t : Fin cfg0.N) : t.val < 128 := lt_of_lt_of_eq t.isLt N_0

/-- The four windows' block indices at point `t`, decided over the grid. -/
theorem idx0 : ∀ t : Fin cfg0.N, win0_0.index t 0 = t.val / 32 ∧ win0_0.index t 1 = t.val % 8 :=
  (by decide +kernel : ∀ t : Fin grid0.N, win0_0.index t 0 = t.val / 32 ∧ win0_0.index t 1 = t.val % 8)
theorem idx1 : ∀ t : Fin cfg0.N, win0_1.index t 0 = t.val % 8 ∧ win0_1.index t 1 = t.val / 8 % 4 :=
  (by decide +kernel : ∀ t : Fin grid0.N, win0_1.index t 0 = t.val % 8 ∧ win0_1.index t 1 = t.val / 8 % 4)
theorem idx2 : ∀ t : Fin cfg0.N, win0_2.index t 0 = 0 ∧ win0_2.index t 1 = t.val / 8 % 4 :=
  (by decide +kernel : ∀ t : Fin grid0.N, win0_2.index t 0 = 0 ∧ win0_2.index t 1 = t.val / 8 % 4)
theorem idx3 : ∀ t : Fin cfg0.N, win0_3.index t 0 = t.val / 32 ∧ win0_3.index t 1 = t.val / 8 % 4 :=
  (by decide +kernel : ∀ t : Fin grid0.N, win0_3.index t 0 = t.val / 32 ∧ win0_3.index t 1 = t.val / 8 % 4)

/-- The three input windows' blocks at point `t`, at their literal shapes. -/
abbrev xblk (c : Dev nD) (t : Fin cfg0.N) : Vec F S1024x512 .f32 := iblk m c 0 t
abbrev wblk (c : Dev nD) (t : Fin cfg0.N) : Vec F S512x1024 .f32 := iblk m c 1 t
abbrev bblk (c : Dev nD) (t : Fin cfg0.N) : Vec F S1x1024 .f32 := iblk m c 2 t

/-- The x-window at point `t`, entry (p, l): x at (row tile's row p, contraction block's term l). -/
theorem xblk_apply (c : Dev nD) (t : Fin cfg0.N) (p : Fin 1024) (l : Fin 512) :
    xblk m c t (ix2 p l)
      = m ((c : Thread nD τ).loc main_arg0) (ix2 (tileRow t.val (lt128 t) p) (kIdx (kBlock t.val) l)) := by
  unfold xblk iblk
  rw [View.read_apply]
  show V m c main_arg0 _ = _
  rw [V_main_arg0]
  congr 1
  funext a
  apply Fin.ext
  match a with
  | ⟨0, _⟩ => show win0_0.index t 0 * 1024 + 1 * p.val = 1024 * (t.val / 32) + p.val; rw [(idx0 t).1]; omega
  | ⟨1, _⟩ => show win0_0.index t 1 * 512 + 1 * l.val = 512 * (t.val % 8) + l.val; rw [(idx0 t).2]; omega

/-- The weight window at point `t`, entry (l, u): W at (contraction block's term l, column tile's column u). -/
theorem wblk_apply (c : Dev nD) (t : Fin cfg0.N) (l : Fin 512) (u : Fin 1024) :
    wblk m c t (ix2 l u)
      = m ((c : Thread nD τ).loc main_arg1) (ix2 (kIdx (kBlock t.val) l) (tileCol t.val (lt128 t) u)) := by
  unfold wblk iblk
  rw [View.read_apply]
  show V m c main_arg1 _ = _
  rw [V_main_arg1]
  congr 1
  funext a
  apply Fin.ext
  match a with
  | ⟨0, _⟩ => show win0_1.index t 0 * 512 + 1 * l.val = 512 * (t.val % 8) + l.val; rw [(idx1 t).1]; omega
  | ⟨1, _⟩ => show win0_1.index t 1 * 1024 + 1 * u.val = 1024 * (t.val / 8 % 4) + u.val; rw [(idx1 t).2]; omega

/-- The bias as the region finds it: the [4096] argument laid out as one row of 4096. -/
theorem bias_row (c : Dev nD) (q : Fin 4096) :
    (V m c main_v0 : S1x4096.Idx → Elt F .f32) (ix2 (0 : Fin 1) q) = m ((c : Thread nD τ).loc main_arg2) (ix1 q) := by
  have e : (V m c main_v0 : S1x4096.Idx → Elt F .f32)
      = shapeCast S1x4096 (m ((c : Thread nD τ).loc main_arg2)) shapeCasts_S4096_S1x4096 := by
    dsimp only [V, hostOps0]; after_results; rfl
  rw [e]
  exact shapeCast_apply _ shapeCasts_S4096_S1x4096 (ix2 (0 : Fin 1) q) (ix1 q) (by
    rw [Shape.rowMajor_val_two, Shape.rowMajor_val_one]; show q.val = 0 * 4096 + q.val; omega)

/-- The bias window at point `t`, entry (0, u): the bias at the column tile's column u. -/
theorem bblk_apply (c : Dev nD) (t : Fin cfg0.N) (u : Fin 1024) :
    bblk m c t (ix2 (0 : Fin 1) u)
      = m ((c : Thread nD τ).loc main_arg2) (ix1 (tileCol t.val (lt128 t) u)) := by
  rw [← bias_row m c]
  unfold bblk iblk
  rw [View.read_apply]
  show V m c main_v0 _ = _
  congr 1
  funext a
  apply Fin.ext
  match a with
  | ⟨0, _⟩ => show win0_2.index t 0 * 1 + 1 * 0 = 0; rw [(idx2 t).1]
  | ⟨1, _⟩ => show win0_2.index t 1 * 1024 + 1 * u.val = 1024 * (t.val / 8 % 4) + u.val; rw [(idx2 t).2]; omega

end Cert.KernelIdeal.Blocks

end
-- ==== Proof.Scratch.lean ====
/-
  The accumulator after every grid point.

  Walking the grid in order, the eight points of one output tile come one after the other (the contraction block is
  the fastest axis). The first of them zeroes the accumulator and adds block 0 of the contraction; each later one adds
  its block to what the point before left. So after point n the accumulator's entry (p, u) is the sum of the first
  n % 8 + 1 blocks of the contraction for row 1024·(n/32) + p and column 1024·(n/8%4) + u: an induction on the point.
-/
import proofs.«133517_j27590869910151_1_alg».proof.Proof.Gen.KernelIdeal.Frame
import proofs.«133517_j27590869910151_1_alg».proof.Proof.Spec
import proofs.«133517_j27590869910151_1_alg».proof.Proof.Pieces
import proofs.«133517_j27590869910151_1_alg».proof.Proof.Payload
import proofs.«133517_j27590869910151_1_alg».proof.Proof.Blocks

noncomputable section

namespace Cert.KernelIdeal.Scratch

open Idealize.ShloMosaic Idealize.ShloMosaic.TcCoe Idealize.SL.Sem Idealize.ShloMosaic.ValueIdx
open Cert.KernelIdeal Cert.KernelIdeal.Gen Cert.SignDense Cert.KernelIdeal.Blocks

variable (m : (ℓ : Loc nD τ sig) → Buf (Elt Ideal) ℓ)

/-- The two matrix arguments as launched. -/
abbrev X (c : Dev nD) : Mat := m ((c : Thread nD τ).loc main_arg0)
abbrev W (c : Dev nD) : Mat := m ((c : Thread nD τ).loc main_arg1)

theorem lt128' {n : ℕ} (hn : n < cfg0.N) : n < 128 := lt_of_lt_of_eq hn N_0

/-- The products of point `t`'s x-window and sign-binarized weight window, summed over the block's 512 terms, are
    that block's share of the contraction for the tile's row and column. -/
theorem block_sum (c : Dev nD) (t : Fin cfg0.N) (p u : Fin 1024) :
    (∑ l : Fin 512, xblk m c t (ix2 p l) * sgn (wblk m c t (ix2 l u)))
      = blockTerm (X m c) (W m c) (tileRow t.val (lt128 t) p) (tileCol t.val (lt128 t) u) (kBlock t.val) := by
  unfold blockTerm
  refine Finset.sum_congr rfl fun l _ => ?_
  rw [xblk_apply m c t p l, wblk_apply m c t l u]

/-- One more block at point `n`: the first `n % 8 + 1` blocks are the first `n % 8` and point `n`'s own. -/
theorem partial_step (A B : Mat) (r q : Fin 4096) (n : ℕ) :
    partialDot A B r q (n % 8 + 1) = partialDot A B r q (n % 8) + blockTerm A B r q (kBlock n) :=
  partialDot_succ A B r q (n % 8) (Nat.mod_lt _ (by decide))

/-- After point `n` the accumulator's entry (p, u) holds the first `n % 8 + 1` blocks of the contraction. -/
theorem scratch_after (c : Dev nD) : ∀ (n : ℕ) (hn : n < cfg0.N) (p u : Fin 1024),
    (outsAt0 m c n hn).2 (ix2 p u)
      = partialDot (X m c) (W m c) (tileRow n (lt128' hn) p) (tileCol n (lt128' hn) u) (n % 8 + 1) := by
  intro n
  induction n using Nat.strong_induction_on with
  | _ n ih =>
    intro hn p u
    have hN : n < 128 := lt128' hn
    by_cases h0 : n % 8 = 0
    · -- the tile's first step: the accumulator is zeroed, then block 0 is added
      have h1 : ¬n % 8 = 7 := by omega
      rw [outsAt0_A m c ⟨n, hn⟩ h0 h1]
      dsimp only
      refine (congrFun (Pieces.scratch_A (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) scM0_0 (Memref.isWhole_whole _) _ _ (xblk m c ⟨n, hn⟩) (wblk m c ⟨n, hn⟩) (bblk m c ⟨n, hn⟩)) (ix2 p u)).trans ?_
      refine (Payload.step_apply (wblk m c ⟨n, hn⟩) (xblk m c ⟨n, hn⟩) (k0_pay1 (F := Ideal)) p u).trans ?_
      rw [Payload.reset_apply, block_sum m c ⟨n, hn⟩ p u, partial_step, h0, partialDot_zero]
    · -- a later step of the same tile: the point before belongs to the same tile and has one block fewer
      have hprev : n - 1 < cfg0.N := Nat.lt_of_le_of_lt (Nat.sub_le _ _) hn
      have hrow : tileRow (n - 1) (lt128' hprev) p = tileRow n hN p := Fin.ext (by show 1024 * ((n - 1) / 32) + p.val = 1024 * (n / 32) + p.val; omega)
      have hcol : tileCol (n - 1) (lt128' hprev) u = tileCol n hN u := Fin.ext (by show 1024 * ((n - 1) / 8 % 4) + u.val = 1024 * (n / 8 % 4) + u.val; omega)
      have hk : (n - 1) % 8 + 1 = n % 8 := by omega
      have hacc := ih (n - 1) (by omega) hprev p u
      rw [hrow, hcol, hk] at hacc
      by_cases h1 : n % 8 = 7
      · rw [outsAt0_C m c ⟨n, hn⟩ h0 h1]
        dsimp only
        refine (congrFun (Pieces.scratch_C (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) scM0_0 (Memref.isWhole_whole _) _ _ (xblk m c ⟨n, hn⟩) (wblk m c ⟨n, hn⟩) (bblk m c ⟨n, hn⟩) (outsAt0 m c (n - 1) hprev).2) (ix2 p u)).trans ?_
        refine (Payload.step_apply (wblk m c ⟨n, hn⟩) (xblk m c ⟨n, hn⟩) (outsAt0 m c (n - 1) hprev).2 p u).trans ?_
        rw [hacc, block_sum m c ⟨n, hn⟩ p u, partial_step]
      · rw [outsAt0_B m c ⟨n, hn⟩ h0 h1]
        dsimp only
        refine (congrFun (Pieces.scratch_B (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) scM0_0 (Memref.isWhole_whole _) _ _ (xblk m c ⟨n, hn⟩) (wblk m c ⟨n, hn⟩) (bblk m c ⟨n, hn⟩) (outsAt0 m c (n - 1) hprev).2) (ix2 p u)).trans ?_
        refine (Payload.step_apply (wblk m c ⟨n, hn⟩) (xblk m c ⟨n, hn⟩) (outsAt0 m c (n - 1) hprev).2 p u).trans ?_
        rw [hacc, block_sum m c ⟨n, hn⟩ p u, partial_step]

end Cert.KernelIdeal.Scratch

end
-- ==== Proof.KernelValue.lean ====
/-
  The kernel's result array.

  An output tile is written back once, after the last of its eight K-steps. There the accumulator holds all eight
  blocks, that is the whole contraction Σ_k x(r, k) · sgn W(k, q) for the tile's rows and columns; the step adds the
  bias along each row and takes the maximum with 0. The sixteen tiles fill the [4096, 4096] result, so after the run
  the result array is the layer `dense X W b` of the arguments, entry by entry.
-/
import proofs.«133517_j27590869910151_1_alg».proof.Proof.Gen.KernelIdeal.Value
import proofs.«133517_j27590869910151_1_alg».proof.Proof.Scratch

noncomputable section

namespace Cert.KernelIdeal.RefValue

open Idealize.ShloMosaic Idealize.ShloMosaic.TcCoe Idealize.SL.Sem Idealize.ShloMosaic.ValueIdx
open Idealize.ShloMosaic.Pipeline (Dat)
open Cert.KernelIdeal Cert.KernelIdeal.Gen Cert.SignDense Cert.KernelIdeal.Blocks Cert.KernelIdeal.Scratch

variable (m : (ℓ : Loc nD τ sig) → Buf (Elt Ideal) ℓ) (ρ : Dev nD → PrngReg)

/-- The bias argument as launched. -/
abbrev Bv (c : Dev nD) : Bias := m ((c : Thread nD τ).loc main_arg2)

/-- What the result array ends holding: the layer of the three arguments. -/
abbrev result (c : Dev nD) : Buf (Elt Ideal) ((c : Thread nD τ).loc main_v1) := dense (X m c) (W m c) (Bv m c)

/-- After a tile's last K-step the output window's entry (p, u) is the layer's entry at the tile's row and column. -/
theorem out_after (c : Dev nD) (n : ℕ) (hn : n < cfg0.N) (h7 : n % 8 = 7) (p u : Fin 1024) :
    (outsAt0 m c n hn).1 (ix2 p u) = result m c (ix2 (tileRow n (lt128' hn) p) (tileCol n (lt128' hn) u)) := by
  have h0 : ¬n % 8 = 0 := by omega
  have hprev : n - 1 < cfg0.N := Nat.lt_of_le_of_lt (Nat.sub_le _ _) hn
  have hs := scratch_after m c n hn p u
  rw [outsAt0_C m c ⟨n, hn⟩ h0 h7] at hs ⊢
  dsimp only at hs ⊢
  have e2 := congrFun (Pieces.scratch_C (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) scM0_0 (Memref.isWhole_whole _) (fun h => h0 ((hcond0_0 ⟨n, hn⟩).mp h)) ((hcond0_1 ⟨n, hn⟩).mpr h7) (xblk m c ⟨n, hn⟩) (wblk m c ⟨n, hn⟩) (bblk m c ⟨n, hn⟩) (outsAt0 m c (n - 1) hprev).2) (ix2 p u)
  have hacc := e2.symm.trans hs
  have h8 : n % 8 + 1 = 8 := by omega
  refine (congrFun (Pieces.out_C (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) scM0_0 (Memref.isWhole_whole _) _ _ (xblk m c ⟨n, hn⟩) (wblk m c ⟨n, hn⟩) (bblk m c ⟨n, hn⟩) (outsAt0 m c (n - 1) hprev).2) (ix2 p u)).trans ?_
  refine (Payload.finish_apply (k0_pay2 (F := Ideal) (wblk m c ⟨n, hn⟩) (xblk m c ⟨n, hn⟩) (outsAt0 m c (n - 1) hprev).2) (bblk m c ⟨n, hn⟩) p u).trans ?_
  rw [hacc, h8, partialDot_eight, bblk_apply m c ⟨n, hn⟩ u]
  rfl

/-- What a writing-back point writes is its tile of the layer. -/
theorem flushed_eq (c : Dev nD) (t : Fin cfg0.N) (hf : (cfg0.win 3).flush t = true) :
    (dats m 0 c).flushed 3 t = ((cfg0.win 3).blk t).view.read (Elt Ideal) (result m c) := by
  have h7 : t.val % 8 = 7 := (flush0_3 t).mp hf
  rw [Value.flushed3]
  funext j
  rw [View.read_apply]
  show (outsAt0 m c t.val t.isLt).1 j = result m c (((cfg0.win 3).blk t).view.emb j)
  have ej : (outsAt0 m c t.val t.isLt).1 j = (outsAt0 m c t.val t.isLt).1 (ix2 (j 0) (j 1)) :=
    congrArg (outsAt0 m c t.val t.isLt).1 (eq_ix2 j)
  rw [ej, out_after m c t.val t.isLt h7 (j 0) (j 1)]
  refine congrArg (result m c) (funext fun a => Fin.ext ?_)
  match a with
  | ⟨0, _⟩ => show 1024 * (t.val / 32) + (j 0).val = win0_3.index t 0 * 1024 + 1 * (j 0).val; rw [(idx3 t).1]; omega
  | ⟨1, _⟩ => show 1024 * (t.val / 8 % 4) + (j 1).val = win0_3.index t 1 * 1024 + 1 * (j 1).val; rw [(idx3 t).2]; omega

/-- Every entry of the result lies in the tile of some writing-back point: tile (r / 1024, q / 1024), last K-step. -/
theorem cover (i : S4096x4096.Idx) :
    ∃ t : Fin cfg0.N, (cfg0.win 3).flush t = true ∧ i ∈ ((cfg0.win 3).blk t).view.set := by
  have hi0 : (i 0).val < 4096 := (i 0).isLt
  have hi1 : (i 1).val < 4096 := (i 1).isLt
  have hN : cfg0.N = 128 := N_0
  let t : Fin cfg0.N := ⟨32 * ((i 0).val / 1024) + 8 * ((i 1).val / 1024) + 7, by rw [hN]; omega⟩
  have htv : t.val = 32 * ((i 0).val / 1024) + 8 * ((i 1).val / 1024) + 7 := rfl
  refine ⟨t, (flush0_3 t).mpr (by rw [htv]; omega), ?_⟩
  show i ∈ ((View.whole main_v1).slice (win0_3.rect t)).set
  rw [View.set_slice_whole, Rect.mem_set_unit]
  intro a
  match a with
  | ⟨0, _⟩ =>
    show win0_3.index t 0 * 1024 ≤ (i 0).val ∧ (i 0).val < win0_3.index t 0 * 1024 + 1024
    rw [(idx3 t).1, htv]; omega
  | ⟨1, _⟩ =>
    show win0_3.index t 1 * 1024 ≤ (i 1).val ∧ (i 1).val < win0_3.index t 1 * 1024 + 1024
    rw [(idx3 t).2, htv]; omega

/-- The result array after the run is the layer of the arguments. -/
theorem final (c : Dev nD) : (dats m 0 c).arrAt 3 cfg0.N = result m c :=
  (dats m 0 c).arrAt_eq_of_cover 3 (result m c) (flushed_eq m c) cover

/-- The run, read: the result array at the layer of the arguments, the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.RefValue

end
-- ==== Proof.RefValue.lean ====
/-
  The reference program read entry by entry is the sign-binarized dense layer.

  The reference builds its weights as W + (s − W) with s = 1 where W ≥ 0 and −1 elsewhere, contracts X against
  them over k < 4096, adds the bias row and takes the maximum with 0. For a finite weight w the sum
  w + (s − w) is s itself, so each weight entry is sgn w and entry (r, q) of the result is
  max (Σ_k X(r, k) · sgn W(k, q) + b(q)) 0. The f32 words for 0, 1 and −1 stay as written on both sides.
-/
import proofs.«133517_j27590869910151_1_alg».proof.Proof.Gen.ReferenceIdeal.Read
import proofs.«133517_j27590869910151_1_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Read Idealize.ShloMosaic Idealize.ShloMosaic.ValueIdx Cert.SignDense

/-- One binarized weight: at a finite entry w of W, the reference's W + (s − W) is sgn w. -/
theorem weight_eq_sgn (x1 : (⟨Cert.ReferenceIdeal.S4096x4096, .f32⟩ : BufTy).Contents (Elt Ideal))
    (hW : ∀ i, ∃ w : ℝ, x1 i = (w : EReal)) (r : Cert.ReferenceIdeal.S4096x4096.Idx) :
    val_main_v5 (F := Ideal) x1 r = sgn (x1 r) := by
  rw [val_main_v5_apply, val_main_v4_apply, val_main_v3_apply, val_main_v2_apply, val_main_v1_apply,
    val_main_v0_apply, val_main_cst_apply, val_main_call0_v0_apply, val_main_call0_v1_apply,
    val_main_cst_0_apply, val_main_cst_1_apply]
  rw [Ideal.addf_def, Ideal.subf_def, Ideal.cmpf_def, Ideal.ofBits_def, Ideal.ofBits_def, Ideal.ofBits_def]
  obtain ⟨w, hw⟩ := hW r
  rw [hw]
  exact add_sub_cancel_finite w _

/-- The reference's result is the layer: entry (r, q) is max (Σ_k X(r, k) · sgn W(k, q) + b(q)) 0 when every weight is finite. -/
theorem reference_eq_dense
    (x0 x1 : (⟨Cert.ReferenceIdeal.S4096x4096, .f32⟩ : BufTy).Contents (Elt Ideal)) (x2 : (⟨Cert.ReferenceIdeal.S4096, .f32⟩ : BufTy).Contents (Elt Ideal))
    (hW : ∀ i, ∃ w : ℝ, x1 i = (w : EReal)) :
    Cert.ReferenceIdeal.Read.val_main_v10 (F := Ideal) x0 x1 x2 = Cert.SignDense.dense x0 x1 x2 := by
  refine funext fun (i : (⟨2, ![4096, 4096]⟩ : Shape).Idx) => ?_
  rw [val_main_v10_apply, val_main_v9_apply, val_main_v6_apply, val_main_v8_apply, val_main_v7_apply,
    val_main_call1_v0_apply, val_main_call1_cst_apply]
  have el : ∀ k : Fin 4096, lidx_main_v6 i k = ix2 (n0 := 4096) (n1 := 4096) (i 0) k := fun k =>
    funext fun a => Fin.ext (by match a with | ⟨0, _⟩ => rfl | ⟨1, _⟩ => rfl)
  have er : ∀ k : Fin 4096, ridx_main_v6 i k = ix2 (n0 := 4096) (n1 := 4096) k (i 1) := fun k =>
    funext fun a => Fin.ext (by match a with | ⟨0, _⟩ => rfl | ⟨1, _⟩ => rfl)
  have eb : idx_main_v7 (idx_main_v8 i) = ix1 (n := 4096) (i 1) :=
    funext fun a => Fin.ext (by match a with | ⟨0, _⟩ => rfl)
  have es : (∑ k : Fin 4096, x0 (lidx_main_v6 i k) * val_main_v5 (F := Ideal) x1 (ridx_main_v6 i k))
      = ∑ k : Fin 4096, x0 (ix2 (n0 := 4096) (n1 := 4096) (i 0) k) * sgn (x1 (ix2 (n0 := 4096) (n1 := 4096) k (i 1))) :=
    Finset.sum_congr rfl fun k _ => by rw [el k, er k]; exact congrArg (x0 _ * ·) (weight_eq_sgn x1 hW _)
  rw [es, eb, Ideal.maximumf_def, Ideal.addf_def, Ideal.ofBits_def]
  rfl

end Cert.ReferenceIdeal.RefValue

end
-- ==== Proof.Finite.lean ====
/-
  Finite weights under the precondition.

  The precondition says, of each of the three argument arrays, that every entry's absolute value is below the f32 word
  of +∞, the three statements joined by "and" into one bit that is 1. Reading the middle one back at an index: the
  absolute value max x (−x) of an extended real x is below +∞ only when x is neither infinity, that is, x is a real.
-/
import proofs.«133517_j27590869910151_1_alg».proof.Defs
import proofs.«133517_j27590869910151_1_alg».proof.Proof.Gen.Pre_finite_inputs
import Idealize.ShloMosaic.Lib.ReduceAll
import Idealize.ShloMosaic.Lib.ValueIdx
import Idealize.ShloMosaic.PureOps.Ideal.Laws

noncomputable section

namespace Cert.Proof.Finite

open Idealize.ShloMosaic Idealize.SL.Sem

/-- The rank-0 shape has one index. -/
instance : Subsingleton Cert.Pre_finite_inputs.S_.Idx := ⟨fun a b => funext fun d => d.elim0⟩

/-- The f32 word 0x7F800000 denotes +∞. -/
theorem ofBits_inf : Ideal.ofBits .f32 0x7F800000#32 = (⊤ : EReal) := by
  simp [Ideal.ofBits, Ideal.ieee]

/-- An extended real whose absolute value compares below +∞ is a real. -/
theorem real_of_abs_lt_inf (x : EReal)
    (h : Ideal.cmp .olt (max x (-x)) (Ideal.ofBits .f32 0x7F800000#32) = 1#1) : ∃ w : ℝ, x = (w : EReal) := by
  rw [ofBits_inf] at h
  induction x using EReal.rec with
  | bot => simp [Ideal.cmp] at h
  | top => simp [Ideal.cmp] at h
  | coe r => exact ⟨r, rfl⟩

/-- Under the precondition every entry of the weight array (the second argument) is a real, on every device. -/
theorem weights_finite (m : (ℓ : Loc Cert.KernelIdeal.nD Cert.KernelIdeal.τ Cert.KernelIdeal.sig) → Buf (Elt Ideal) ℓ)
    (h : @Cert.Pre_KernelIdeal Cert.Pre_finite_inputs.Gen.facts m) (c : Dev Cert.KernelIdeal.nD)
    (i : Cert.KernelIdeal.S4096x4096.Idx) :
    ∃ w : ℝ, m ((c.tc : Thread Cert.KernelIdeal.nD Cert.KernelIdeal.τ).loc Cert.KernelIdeal.main_arg1) i = (w : EReal) := by
  have h0 := congrFun (h c) ValueIdx.ix0
  dsimp only [Cert.Pre_finite_inputs.fn] at h0
  have h1 : IntOp.andi _ _ = 1#1 := h0
  have h2 : IntOp.andi _ _ = 1#1 := (IntOp.andi_eq_one.1 h1).1
  have h3 := (IntOp.andi_eq_one.1 h2).2
  have h4 := Host.reduce_andi_all _ _ _ _ _ h3 i
  exact real_of_abs_lt_inf _ h4

end Cert.Proof.Finite

end
-- ==== Proof.lean ====
/-
  The certificate of the sign-binarized dense layer: out = max (x · sgn W + b) 0, with sgn w = 1 for w ≥ 0 and −1
  otherwise, over x, W : [4096, 4096] and b : [4096].

  The kernel walks a 4 × 4 × 8 grid of 1024 × 1024 output tiles and eight contraction blocks of 512: a tile's first
  step zeroes an accumulator, every step adds x-block · sgn (W-block) to it, and the last step adds the bias row and
  takes the maximum with 0 into the output tile. The reference forms its weights as W + (s − W) with s = sgn W,
  contracts all 4096 terms at once, adds the bias and takes the maximum with 0.

  On the extended reals both are the same function of the arguments (Proof/Spec.lean, `dense`):
  * the kernel's accumulator after a tile's n-th step is the sum of the first n blocks of the contraction
    (Proof/Scratch.lean, by induction along the grid), so the tile written back after the eighth step is the layer's
    tile (Proof/KernelValue.lean), and the sixteen tiles fill the result;
  * the reference's weight W + (s − W) is s wherever W is finite (Proof/RefValue.lean), which the precondition
    gives (Proof/Finite.lean); eight blocks of 512 terms are the whole contraction because addition of extended reals
    is commutative and associative, and no other law is used.
  The three programs' runs terminate and leave the arguments unchanged (the generated frames and the reference's
  generated run); the idealization rewrote no operation.
-/
import proofs.«133517_j27590869910151_1_alg».proof.Defs
import proofs.«133517_j27590869910151_1_alg».proof.Proof.Gen.Kernel
import proofs.«133517_j27590869910151_1_alg».proof.Proof.Gen.Kernel.Frame
import proofs.«133517_j27590869910151_1_alg».proof.Proof.Gen.KernelIdeal
import proofs.«133517_j27590869910151_1_alg».proof.Proof.Gen.KernelIdeal.Frame
import proofs.«133517_j27590869910151_1_alg».proof.Proof.Gen.KernelIdeal.Value
import proofs.«133517_j27590869910151_1_alg».proof.Proof.Gen.ReferenceIdeal
import proofs.«133517_j27590869910151_1_alg».proof.Proof.Gen.ReferenceIdeal.Run
import proofs.«133517_j27590869910151_1_alg».proof.Proof.Gen.ReferenceIdeal.Read
import proofs.«133517_j27590869910151_1_alg».proof.Proof.Gen.Pre_finite_inputs
import proofs.«133517_j27590869910151_1_alg».proof.Proof.KernelValue
import proofs.«133517_j27590869910151_1_alg».proof.Proof.RefValue
import proofs.«133517_j27590869910151_1_alg».proof.Proof.Finite
import Idealize.ShloMosaic.Adequacy
import Idealize.ShloMosaic.Init

noncomputable section

namespace Cert.Proof

open Idealize.ShloMosaic Idealize.SL.Sem

/-- The kernel as printed runs, and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten when the kernel was printed for the extended reals. -/
theorem preserves : Cert.preserves_Kernel_KernelIdeal := trivial

/-- From arguments that agree and are finite, the kernel's result array and the reference's are both the layer
    `dense x W b`: the kernel's by its run read tile by tile, the reference's by its operations read entry by entry with
    every weight finite. -/
theorem algebraic : Cert.algebraic_KernelIdeal_ReferenceIdeal := by
  intro m ρ m' ρ' hpre hagree
  refine ⟨fun c => Cert.KernelIdeal.RefValue.result m c, Cert.KernelIdeal.RefValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v10_eq _ _ _).trans
    (Cert.ReferenceIdeal.RefValue.reference_eq_dense _ _ _ (fun i => Cert.Proof.Finite.weights_finite m hpre c i))

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
